-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 23
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S1x128, .f32⟩
  | .hbm, ⟨21, _⟩ => ⟨S1x128, .f32⟩
  | .hbm, ⟨22, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.HostArrays.lean ====
/-
  The three arrays the host writes before the kernel region, as functions of the launch contents: the neighbour sums
  (a scatter-add of gathered feature rows, kept as one term) and the two bias vectors laid out as 1 x 128 rows.
-/
import proofs.«115738_j65240553226749_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal

set_option maxRecDepth 16384

noncomputable section

namespace Cert.Gin.Kernel

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt Ideal) ℓ)

/-! ## The arrays the host wrote before the region -/

/-- The neighbour sums as the host computes them: negative source indices are shifted by the row count, the feature
    rows are gathered along the edges, and scatter-added into a zero array at the destination indices. -/
def neigh (x0 : (⟨S100000x128, .f32⟩ : BufTy).Contents (Elt F)) (x1 x2 : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 x2)
    (Host.gather gather_S100000x128_S1600000x1_S1600000x128_1_0_n_n_0_1_1128 x0
      (broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 100000#32))) x1)))

/-- The region finds the neighbour sums of the launch contents in the array its second window stages. -/
theorem found_neigh (c : Dev nD) :
    (V m c main_v9 : S100000x128.Idx → EReal)
      = neigh (F := Ideal) (m ((c : Thread nD τ).loc main_arg0)) (m ((c : Thread nD τ).loc main_arg1)) (m ((c : Thread nD τ).loc main_arg2)) := by
  dsimp only [Gen.V, Gen.hostOps0]
  after_results
  rfl

/-- The region finds the first bias vector laid out as a row. -/
theorem found_bias1 (c : Dev nD) :
    (V m c main_v10 : S1x128.Idx → EReal) = shapeCast S1x128 (m ((c : Thread nD τ).loc main_arg4)) shapeCasts_S128_S1x128 := by
  dsimp only [Gen.V, Gen.hostOps0]
  after_results
  rfl

/-- The region finds the second bias vector laid out as a row. -/
theorem found_bias2 (c : Dev nD) :
    (V m c main_v11 : S1x128.Idx → EReal) = shapeCast S1x128 (m ((c : Thread nD τ).loc main_arg6)) shapeCasts_S128_S1x128 := by
  dsimp only [Gen.V, Gen.hostOps0]
  after_results
  rfl

/-- Entry k of a bias row as the region finds it is entry k of the bias vector. -/
theorem bias1_apply (c : Dev nD) (k : Fin 128) :
    (V m c main_v10 : S1x128.Idx → EReal) (ix2 (0 : Fin 1) k) = m ((c : Thread nD τ).loc main_arg4) (ix1 k) := by
  rw [found_bias1]; exact shapeCast_a_1a_apply _ _ _ _
theorem bias2_apply (c : Dev nD) (k : Fin 128) :
    (V m c main_v11 : S1x128.Idx → EReal) (ix2 (0 : Fin 1) k) = m ((c : Thread nD τ).loc main_arg6) (ix1 k) := by
  rw [found_bias2]; exact shapeCast_a_1a_apply _ _ _ _

end Cert.Gin.Kernel

end
-- ==== Proof.Spec.lean ====
/-
  The layer as one function of its argument arrays, index by index, on the extended reals.

  Row r of the result depends on row r of the node features and of the neighbour sums only:
    hidden k = max (∑ l, (one · x l + nb l) · W1[l, k] + b1 k) zero
    out j    = ∑ k, hidden k · W2[k, j] + b2 j
  where x is the feature row, nb the neighbour-sum row, and one, zero are the values of the two
  float words 1.0 and 0.0 (kept as words: both programs spell the same two words).
-/
import Idealize.ShloMosaic.PureOps.Ideal
import Idealize.ShloMosaic.Lib.ValueIdx

noncomputable section

namespace Cert.Gin

open Idealize.ShloMosaic Idealize.ShloMosaic.ValueIdx

/-- The value of the float word 1.0. -/
abbrev one : EReal := Ideal.ofBits .f32 0x3F800000#32
/-- The value of the float word 0.0. -/
abbrev zero : EReal := Ideal.ofBits .f32 0x00000000#32

/-- The combined row entering the first linear map: the feature row scaled by one, plus the neighbour sums. -/
def combine (x nb : Fin 128 → EReal) (l : Fin 128) : EReal := one * x l + nb l

/-- The hidden row: first linear map, bias, rectifier. -/
def hidden (x nb : Fin 128 → EReal) (W1 : (⟨2, ![128, 128]⟩ : Shape).Idx → EReal) (b1 : Fin 128 → EReal) (k : Fin 128) : EReal :=
  max ((∑ l : Fin 128, combine x nb l * W1 (ix2 l k)) + b1 k) zero

/-- The output row: second linear map and bias over the hidden row. -/
def rowOut (x nb : Fin 128 → EReal) (W1 : (⟨2, ![128, 128]⟩ : Shape).Idx → EReal) (b1 : Fin 128 → EReal)
    (W2 : (⟨2, ![128, 128]⟩ : Shape).Idx → EReal) (b2 : Fin 128 → EReal) (j : Fin 128) : EReal :=
  (∑ k : Fin 128, hidden x nb W1 b1 k * W2 (ix2 k j)) + b2 j

/-- The whole result over R rows: entry (r, j) is the output row of row r at column j. Each bias is given as a
    function of the column. -/
def layer {R : Nat} (feat neigh : (⟨2, ![R, 128]⟩ : Shape).Idx → EReal)
    (W1 : (⟨2, ![128, 128]⟩ : Shape).Idx → EReal) (b1 : Fin 128 → EReal)
    (W2 : (⟨2, ![128, 128]⟩ : Shape).Idx → EReal) (b2 : Fin 128 → EReal) :
    (⟨2, ![R, 128]⟩ : Shape).Idx → EReal := fun i =>
  rowOut (fun l => feat (ix2 (i 0) l)) (fun l => neigh (ix2 (i 0) l)) W1 b1 W2 b2 (i 1)

theorem layer_apply {R : Nat} (feat neigh : (⟨2, ![R, 128]⟩ : Shape).Idx → EReal)
    (W1 : (⟨2, ![128, 128]⟩ : Shape).Idx → EReal) (b1 : Fin 128 → EReal)
    (W2 : (⟨2, ![128, 128]⟩ : Shape).Idx → EReal) (b2 : Fin 128 → EReal) (r : Fin R) (j : Fin 128) :
    layer feat neigh W1 b1 W2 b2 (ix2 r j)
      = rowOut (fun l => feat (ix2 r l)) (fun l => neigh (ix2 r l)) W1 b1 W2 b2 j := rfl

/-- The output row depends on its six arguments only through their values. -/
theorem rowOut_congr {x x' nb nb' : Fin 128 → EReal} {W1 W1' W2 W2' : (⟨2, ![128, 128]⟩ : Shape).Idx → EReal}
    {b1 b1' b2 b2' : Fin 128 → EReal} {j j' : Fin 128}
    (hx : x = x') (hn : nb = nb') (h1 : W1 = W1') (hb1 : b1 = b1') (h2 : W2 = W2') (hb2 : b2 = b2') (hj : j = j') :
    rowOut x nb W1 b1 W2 b2 j = rowOut x' nb' W1' b1' W2' b2' j' := by
  subst hx hn h1 hb1 h2 hb2 hj; rfl

end Cert.Gin

end
-- ==== Proof.BlockFacts.lean ====
/-
  The layer of the arrays as the kernel region finds them, and how the seven windows' blocks move over the twenty grid
  points: the two row-blocked inputs and the output share their row block, the four whole inputs stay put.
-/
import proofs.«115738_j65240553226749_1_alg».proof.Proof.Gen.KernelIdeal.Value
import proofs.«115738_j65240553226749_1_alg».proof.Proof.Spec
import Idealize.ShloMosaic.Lib.Pipeline.Value
import Idealize.ShloMosaic.Lib.ValueIdx
import Idealize.ShloMosaic.PureOps.Ideal

set_option maxRecDepth 16384

noncomputable section

namespace Cert.Gin.Kernel

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## One grid point's block of the result -/

theorem origin : (![0, 0] : Fin 2 → Nat) = fun _ => 0 := funext fun a => by fin_cases a <;> rfl

/-- The layer of the arrays as the region finds them. -/
def found (c : Dev nD) : S100000x128.Idx → EReal :=
  Cert.Gin.layer (V m c main_arg0 : S100000x128.Idx → EReal) (V m c main_v9 : S100000x128.Idx → EReal)
    (V m c main_arg3 : S128x128.Idx → EReal) (fun k => (V m c main_v10 : S1x128.Idx → EReal) (ix2 (0 : Fin 1) k))
    (V m c main_arg5 : S128x128.Idx → EReal) (fun k => (V m c main_v11 : S1x128.Idx → EReal) (ix2 (0 : Fin 1) k))

/-- The index maps over the twenty grid points: the two row-blocked inputs move with the output's row block, the four
    whole inputs stay at the origin, and nothing moves along the columns. -/
theorem block_indices : ∀ t : Fin cfg0.N,
      win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 :=
  (by decide +kernel : ∀ t : Fin grid0.N, _)

/-- Every one of the twenty row blocks is some grid point's. -/
theorem block_onto : ∀ q0 : Fin 20, ∃ t : Fin cfg0.N, win0_6.index t = ![q0.val, 0] :=
  (by decide +kernel : ∀ q0 : Fin 20, ∃ t : Fin grid0.N, win0_6.index t = ![q0.val, 0])

end Cert.Gin.Kernel

end
-- ==== Proof.Payload.lean ====
/-
  One grid point's arithmetic, read at an entry.

  The body of the kernel computes, from a block of 5000 feature rows x0, the matching block of neighbour sums x1,
  the two weight matrices x2, x4 and the two bias rows x3, x5 (each a 1 x 128 array), a 5000 x 128 block whose
  entry (p, q) is the output row of row p (Spec) at column q: the two matrix products into a zero accumulator
  are plain sums over the shared coordinate, the casts to the narrower float format are the identity on the
  extended reals, and the bias row is repeated down the rows.
-/
import proofs.«115738_j65240553226749_1_alg».proof.Proof.Gen.KernelIdeal.Skeleton
import proofs.«115738_j65240553226749_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Gin.Body

open Cert.KernelIdeal Cert.KernelIdeal.Gen Idealize.ShloMosaic Idealize.ShloMosaic.TcCoe Idealize.ShloMosaic.ValueIdx

/-! ## The block product's operand indices -/

/-- The record of the body's two matrix products: rows by the shared coordinate, times the shared coordinate by columns. -/
abbrev D := dot_S5000x128_S128x128_S5000x128_1_0_0_1_n_n

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_shared (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_shared (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at entry (p, q): the sum over the shared coordinate k of
    A[p, k] · B[k, q]. -/
theorem blockProduct_apply {φ₁ φ₂ : FTy} (A : FVec Ideal S5000x128 φ₁) (B : FVec Ideal S128x128 φ₂) (p : Fin 5000) (q : Fin 128) :
    matmul dot_S5000x128_S128x128_S5000x128_1_0_0_1_n_n none A B (constant S5000x128 .f32 0x00000000#32) (ix2 p q)
      = ∑ k : Fin 128, A (ix2 p k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_shared _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_shared _ _).trans hk
    | ⟨1, _⟩ => exact rhs_col _ _)
  rw [el, er]

/-! ## The payload at an entry -/

/-- Entry (p, q) of what one grid point stores: the output row of row p of its two 5000-row blocks, at column q. -/
theorem payload_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k0_pay1 x0 x1 x2 x3 x4 x5 (ix2 p q)
      = Cert.Gin.rowOut (fun l => x0 (ix2 p l)) (fun l => x1 (ix2 p l)) x2 (fun k => x3 (ix2 (0 : Fin 1) k))
          x4 (fun k => x5 (ix2 (0 : Fin 1) k)) q := by
  unfold k0_pay1 Cert.Gin.rowOut Cert.Gin.hidden Cert.Gin.combine
  simp only [addf_apply, blockProduct_apply, truncf_apply, maximumf_apply, mulf_apply, broadcast_apply, shapeCast_self,
    broadcastTo_1b_ab_apply]
  rfl

end Cert.Gin.Body

end
-- ==== Proof.BlockReads.lean ====
/-
  The six input blocks of a grid point, read off the arrays the region found. Grid point t's block of a row-blocked
  input is rows 5000·b … 5000·b + 4999 of its array, b the output's row block at t; a whole input's block is the array.
-/
import proofs.«115738_j65240553226749_1_alg».proof.Proof.Gen.KernelIdeal.Value
import proofs.«115738_j65240553226749_1_alg».proof.Proof.BlockFacts
import Idealize.ShloMosaic.Lib.Pipeline.Value
import Idealize.ShloMosaic.Lib.ValueIdx
import Idealize.ShloMosaic.PureOps.Ideal

set_option maxRecDepth 16384

noncomputable section

namespace Cert.Gin.Kernel

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- Row p of grid point t's feature block is row r of the feature array, r = 5000·b + p for the output's row block b. -/
theorem feat_read (c : Dev nD) (t : Fin cfg0.N) (p : Fin 5000) (l : Fin 128) (r : Fin 100000)
    (hr : r.val = win0_6.index t (0 : Fin 2) * 5000 + 1 * p.val) :
    iblk m c 0 t (ix2 p l) = V m c main_arg0 (ix2 r l) := by
  obtain ⟨e00, e01, e10, e11, e20, e21, e30, e31, e40, e41, e50, e51, e61⟩ := block_indices t
  show V m c main_arg0 (((cfg0.win 0).blk t).view.emb (ix2 p l)) = V m c main_arg0 (ix2 r l)
  have h : ((cfg0.win 0).blk t).view.emb (ix2 p l) = ix2 r l := funext fun a => Fin.ext (by
    match a with
    | ⟨0, _⟩ => show win0_0.index t (0 : Fin 2) * 5000 + 1 * p.val = r.val; omega
    | ⟨1, _⟩ => show win0_0.index t (1 : Fin 2) * 128 + 1 * l.val = l.val; omega)
  rw [h]

/-- Row p of grid point t's block of ANY array staged through the second window is row r of that array,
    r = 5000·b + p for the output's row block b. -/
theorem rows_read (A : S100000x128.Idx → EReal) (t : Fin cfg0.N) (p : Fin 5000) (l : Fin 128) (r : Fin 100000)
    (hr : r.val = win0_6.index t (0 : Fin 2) * 5000 + 1 * p.val) :
    ((cfg0.win 1).blk t).view.read (Elt Ideal) A (ix2 p l) = A (ix2 r l) := by
  obtain ⟨e00, e01, e10, e11, e20, e21, e30, e31, e40, e41, e50, e51, e61⟩ := block_indices t
  show A (((cfg0.win 1).blk t).view.emb (ix2 p l)) = A (ix2 r l)
  have h : ((cfg0.win 1).blk t).view.emb (ix2 p l) = ix2 r l := funext fun a => Fin.ext (by
    match a with
    | ⟨0, _⟩ => show win0_1.index t (0 : Fin 2) * 5000 + 1 * p.val = r.val; omega
    | ⟨1, _⟩ => show win0_1.index t (1 : Fin 2) * 128 + 1 * l.val = l.val; omega)
  rw [h]

/-- So the neighbour-sum block's row p is row r of the neighbour sums the region found. -/
theorem neigh_read (c : Dev nD) (t : Fin cfg0.N) (p : Fin 5000) (l : Fin 128) (r : Fin 100000)
    (hr : r.val = win0_6.index t (0 : Fin 2) * 5000 + 1 * p.val) :
    iblk m c 1 t (ix2 p l) = V m c main_v9 (ix2 r l) :=
  rows_read (V m c main_v9) t p l r hr

/-- The first weight matrix is staged whole at every point. -/
theorem weight1_read (c : Dev nD) (t : Fin cfg0.N) (y : S128x128.Idx) : iblk m c 2 t y = V m c main_arg3 y := by
  obtain ⟨e00, e01, e10, e11, e20, e21, e30, e31, e40, e41, e50, e51, e61⟩ := block_indices t
  show V m c main_arg3 (((cfg0.win 2).blk t).view.emb y) = V m c main_arg3 y
  have h : ((cfg0.win 2).blk t).view.emb y = y := funext fun a => Fin.ext (by
    match a with
    | ⟨0, _⟩ => show win0_2.index t (0 : Fin 2) * 128 + 1 * (y 0).val = (y 0).val; omega
    | ⟨1, _⟩ => show win0_2.index t (1 : Fin 2) * 128 + 1 * (y 1).val = (y 1).val; omega)
  rw [h]

/-- The second weight matrix is staged whole at every point. -/
theorem weight2_read (c : Dev nD) (t : Fin cfg0.N) (y : S128x128.Idx) : iblk m c 4 t y = V m c main_arg5 y := by
  obtain ⟨e00, e01, e10, e11, e20, e21, e30, e31, e40, e41, e50, e51, e61⟩ := block_indices t
  show V m c main_arg5 (((cfg0.win 4).blk t).view.emb y) = V m c main_arg5 y
  have h : ((cfg0.win 4).blk t).view.emb y = y := funext fun a => Fin.ext (by
    match a with
    | ⟨0, _⟩ => show win0_4.index t (0 : Fin 2) * 128 + 1 * (y 0).val = (y 0).val; omega
    | ⟨1, _⟩ => show win0_4.index t (1 : Fin 2) * 128 + 1 * (y 1).val = (y 1).val; omega)
  rw [h]

/-- The first bias row is staged whole at every point. -/
theorem bias1_read (c : Dev nD) (t : Fin cfg0.N) (k : Fin 128) :
    iblk m c 3 t (ix2 (0 : Fin 1) k) = V m c main_v10 (ix2 (0 : Fin 1) k) := by
  obtain ⟨e00, e01, e10, e11, e20, e21, e30, e31, e40, e41, e50, e51, e61⟩ := block_indices t
  show V m c main_v10 (((cfg0.win 3).blk t).view.emb (ix2 (0 : Fin 1) k)) = V m c main_v10 (ix2 (0 : Fin 1) k)
  have h : ((cfg0.win 3).blk t).view.emb (ix2 (0 : Fin 1) k) = ix2 (0 : Fin 1) k := funext fun a => Fin.ext (by
    match a with
    | ⟨0, _⟩ => show win0_3.index t (0 : Fin 2) * 1 + 1 * 0 = 0; omega
    | ⟨1, _⟩ => show win0_3.index t (1 : Fin 2) * 128 + 1 * k.val = k.val; omega)
  rw [h]

/-- The second bias row is staged whole at every point. -/
theorem bias2_read (c : Dev nD) (t : Fin cfg0.N) (k : Fin 128) :
    iblk m c 5 t (ix2 (0 : Fin 1) k) = V m c main_v11 (ix2 (0 : Fin 1) k) := by
  obtain ⟨e00, e01, e10, e11, e20, e21, e30, e31, e40, e41, e50, e51, e61⟩ := block_indices t
  show V m c main_v11 (((cfg0.win 5).blk t).view.emb (ix2 (0 : Fin 1) k)) = V m c main_v11 (ix2 (0 : Fin 1) k)
  have h : ((cfg0.win 5).blk t).view.emb (ix2 (0 : Fin 1) k) = ix2 (0 : Fin 1) k := funext fun a => Fin.ext (by
    match a with
    | ⟨0, _⟩ => show win0_5.index t (0 : Fin 2) * 1 + 1 * 0 = 0; omega
    | ⟨1, _⟩ => show win0_5.index t (1 : Fin 2) * 128 + 1 * k.val = k.val; omega)
  rw [h]

end Cert.Gin.Kernel

end
-- ==== Proof.BlockValue.lean ====
/-
  What one grid point writes back. Grid point t reads rows 5000·t … 5000·t + 4999 of the features and of the neighbour
  sums, the whole of both weight matrices and both bias rows (BlockReads); every entry it stores is the output row of
  its own row (Payload), so the block it writes back is its row block of the layer of the arrays the region found.
-/
import proofs.«115738_j65240553226749_1_alg».proof.Proof.Gen.KernelIdeal.Value
import proofs.«115738_j65240553226749_1_alg».proof.Proof.Payload
import proofs.«115738_j65240553226749_1_alg».proof.Proof.BlockFacts
import proofs.«115738_j65240553226749_1_alg».proof.Proof.BlockReads
import Idealize.ShloMosaic.Lib.Pipeline.Value
import Idealize.ShloMosaic.Lib.ValueIdx

set_option maxRecDepth 16384

noncomputable section

namespace Cert.Gin.Kernel

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- Entry y of what grid point t stores is the layer of the found arrays at the entry of the result that y is. -/
theorem entry_eq (c : Dev nD) (t : Fin cfg0.N) (y : S5000x128.Idx) :
    k0_pay1 (iblk m c 0 t) (iblk m c 1 t) (iblk m c 2 t) (iblk m c 3 t) (iblk m c 4 t) (iblk m c 5 t) y
      = found m c (((cfg0.win 6).blk t).view.emb y) := by
  obtain ⟨p, q, rfl⟩ : ∃ (p : Fin 5000) (q : Fin 128), y = ix2 p q := ⟨y 0, y 1, eq_ix2 y⟩
  obtain ⟨e00, e01, e10, e11, e20, e21, e30, e31, e40, e41, e50, e51, e61⟩ := block_indices t
  refine (Cert.Gin.Body.payload_apply (iblk m c 0 t) (iblk m c 1 t) (iblk m c 2 t) (iblk m c 3 t) (iblk m c 4 t) (iblk m c 5 t) p q).trans ?_
  unfold found Cert.Gin.layer
  exact Cert.Gin.rowOut_congr
    (funext fun l => feat_read m c t p l ((((cfg0.win 6).blk t).view.emb (ix2 p q)) 0) rfl)
    (funext fun l => neigh_read m c t p l ((((cfg0.win 6).blk t).view.emb (ix2 p q)) 0) rfl)
    (funext fun y => weight1_read m c t y)
    (funext fun k => bias1_read m c t k)
    (funext fun y => weight2_read m c t y)
    (funext fun k => bias2_read m c t k)
    (Fin.ext (by show q.val = win0_6.index t (1 : Fin 2) * 128 + 1 * q.val; omega))

/-- What grid point t writes back is its row block of `found`. -/
theorem flushed_eq (c : Dev nD) (t : Fin cfg0.N) :
    (dats m 0 c).flushed 6 t = ((cfg0.win 6).blk t).view.read (Elt Ideal) (found m c) := by
  rw [Cert.KernelIdeal.Value.flushed6]
  unfold out0_6
  rw [View.canon_unit_zero origin]
  simp only [View.ld_unit_zero (S := S5000x128) origin, View.ld_unit_zero (S := S128x128) origin, View.ld_unit_zero (S := S1x128) origin]
  funext j
  exact entry_eq m c t j

end Cert.Gin.Kernel

end
-- ==== Proof.BlockCover.lean ====
/-
  The twenty row blocks of 5000 rows tile the 100000 rows of the result: row r lies in the block of the grid point
  whose row block is r / 5000.
-/
import proofs.«115738_j65240553226749_1_alg».proof.Proof.Gen.KernelIdeal.Value
import proofs.«115738_j65240553226749_1_alg».proof.Proof.BlockFacts
import Idealize.ShloMosaic.Lib.Pipeline.Value

set_option maxRecDepth 16384

noncomputable section

namespace Cert.Gin.Kernel

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The twenty row blocks tile the array -/

/-- An index of the array is in grid point t's block iff each coordinate is in the block's range on its axis. -/
theorem mem_block (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v12).slice (win0_6.rect t)).set ↔ _
  rw [View.set_slice_whole, Rect.mem_set_unit]
  exact Iff.rfl

/-- Row r lies in the block of the grid point whose row block is r / 5000. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := block_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

end Cert.Gin.Kernel

end
-- ==== Proof.KernelValue.lean ====
/-
  What the kernel's result array holds after the run: the layer (Spec) of the launch contents.

  Every grid point writes back its row block of the layer of the arrays the region found (BlockValue) and the blocks
  tile the array (BlockCover), so the array after the run is that layer. Of the arrays the region found, the neighbour
  sums and the two bias rows were written by the host before the region (HostArrays); the others are the launch
  contents themselves.
-/
import proofs.«115738_j65240553226749_1_alg».proof.Proof.Gen.KernelIdeal.Value
import proofs.«115738_j65240553226749_1_alg».proof.Proof.HostArrays
import proofs.«115738_j65240553226749_1_alg».proof.Proof.BlockFacts
import proofs.«115738_j65240553226749_1_alg».proof.Proof.BlockValue
import proofs.«115738_j65240553226749_1_alg».proof.Proof.BlockCover
import Idealize.ShloMosaic.Lib.Pipeline.Value
import Idealize.ShloMosaic.Lib.ValueIdx
import Idealize.ShloMosaic.PureOps.Ideal

set_option maxRecDepth 16384

noncomputable section

namespace Cert.Gin.Kernel

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The result array after the run is `found`. -/
theorem final (c : Dev nD) : (dats m 0 c).arrAt 6 cfg0.N = found m c :=
  (dats m 0 c).arrAt_eq_of_cover 6 (found m c) (fun t _ => flushed_eq m c t) covered

/-! ## The result as a function of the launch contents -/

/-- The layer depends on its six arguments only through their values. -/
theorem layer_congr {R : Nat} {f f' n n' : (⟨2, ![R, 128]⟩ : Shape).Idx → EReal}
    {W1 W1' W2 W2' : (⟨2, ![128, 128]⟩ : Shape).Idx → EReal} {b1 b1' b2 b2' : Fin 128 → EReal}
    (hf : f = f') (hn : n = n') (h1 : W1 = W1') (hb1 : b1 = b1') (h2 : W2 = W2') (hb2 : b2 = b2') :
    Cert.Gin.layer f n W1 b1 W2 b2 = Cert.Gin.layer f' n' W1' b1' W2' b2' := by
  subst hf hn h1 hb1 h2 hb2; rfl

/-- `found` is the layer of the launch contents: the features, their neighbour sums, the two weight matrices and
    the two bias vectors. -/
theorem found_eq (c : Dev nD) :
    found m c = Cert.Gin.layer (m ((c : Thread nD τ).loc main_arg0))
      (neigh (F := Ideal) (m ((c : Thread nD τ).loc main_arg0)) (m ((c : Thread nD τ).loc main_arg1)) (m ((c : Thread nD τ).loc main_arg2)))
      (m ((c : Thread nD τ).loc main_arg3)) (fun k => m ((c : Thread nD τ).loc main_arg4) (ix1 k))
      (m ((c : Thread nD τ).loc main_arg5)) (fun k => m ((c : Thread nD τ).loc main_arg6) (ix1 k)) := by
  unfold found
  exact layer_congr (V_main_arg0 m c) (found_neigh m c) (V_main_arg3 m c) (funext fun k => bias1_apply m c k)
    (V_main_arg5 m c) (funext fun k => bias2_apply m c k)

/-- The kernel's run: the result array ends at the layer of the launch contents, the arguments unchanged. -/
theorem run : θ_run defs (onTc (τ := τ) (main (F := Ideal))) ⟨m, fun _ => 0, ρ⟩ fun r => ∀ c : Dev nD,
      r.2.mem ((c : Thread nD τ).loc main_v12) = Cert.Gin.layer (m ((c : Thread nD τ).loc main_arg0))
          (neigh (F := Ideal) (m ((c : Thread nD τ).loc main_arg0)) (m ((c : Thread nD τ).loc main_arg1)) (m ((c : Thread nD τ).loc main_arg2)))
          (m ((c : Thread nD τ).loc main_arg3)) (fun k => m ((c : Thread nD τ).loc main_arg4) (ix1 k))
          (m ((c : Thread nD τ).loc main_arg5)) (fun k => m ((c : Thread nD τ).loc main_arg6) (ix1 k))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (found_eq m c)), (h c).2⟩)
    (Cert.KernelIdeal.Value.run_blocks m ρ)

end Cert.Gin.Kernel

end
-- ==== Proof.RefValue.lean ====
/-
  The reference's result is the layer (Spec) of its arguments.

  Reading the host program one operation at a time: the combined array is 1 · feature + neighbour sums, the two
  products are sums over the shared coordinate, each bias vector is laid out as a row and repeated down the rows,
  and the rectifier is the maximum with the zero array. The neighbour sums (a gather followed by a scatter-add)
  are kept as one unopened term.
-/
import proofs.«115738_j65240553226749_1_alg».proof.Proof.Gen.ReferenceIdeal.Read
import proofs.«115738_j65240553226749_1_alg».proof.Proof.Spec
import Idealize.ShloMosaic.Lib.ValueIdx

noncomputable section

namespace Cert.Gin.Ref

open Cert.ReferenceIdeal Cert.ReferenceIdeal.Read Idealize.ShloMosaic Idealize.ShloMosaic.TcCoe Idealize.ShloMosaic.ValueIdx

/-! ## The index maps of the layout operations and of the two products, at explicit coordinates -/

theorem left_second (r : Fin 100000) (j k : Fin 128) : lidx_main_v18 (ix2 r j) k = ix2 r k :=
  funext fun a => Fin.ext (by match a with | ⟨0, _⟩ => rfl | ⟨1, _⟩ => rfl)
theorem right_second (r : Fin 100000) (j k : Fin 128) : ridx_main_v18 (ix2 r j) k = ix2 k j :=
  funext fun a => Fin.ext (by match a with | ⟨0, _⟩ => rfl | ⟨1, _⟩ => rfl)
theorem left_first (r : Fin 100000) (k l : Fin 128) : lidx_main_v13 (ix2 r k) l = ix2 r l :=
  funext fun a => Fin.ext (by match a with | ⟨0, _⟩ => rfl | ⟨1, _⟩ => rfl)
theorem right_first (r : Fin 100000) (k l : Fin 128) : ridx_main_v13 (ix2 r k) l = ix2 l k :=
  funext fun a => Fin.ext (by match a with | ⟨0, _⟩ => rfl | ⟨1, _⟩ => rfl)
theorem row_second (r : Fin 100000) (j : Fin 128) : idx_main_v19 (idx_main_v20 (ix2 r j)) = ix1 j :=
  funext fun a => Fin.ext (by match a with | ⟨0, _⟩ => rfl)
theorem row_first (r : Fin 100000) (k : Fin 128) : idx_main_v14 (idx_main_v15 (ix2 r k)) = ix1 k :=
  funext fun a => Fin.ext (by match a with | ⟨0, _⟩ => rfl)

/-! ## The result, index by index -/

/-- The reference's last stage is the layer of the feature array, the neighbour sums, the two weight matrices and the
    two bias vectors. -/
theorem result_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v21 (F := Ideal) x0 x1 x2 x3 x4 x5 x6
      = Cert.Gin.layer x0 (val_main_v9 (F := Ideal) x0 x1 x2) x3 (fun k => x4 (ix1 k)) x5 (fun k => x6 (ix1 k)) := by
  funext i
  obtain ⟨r, j, rfl⟩ : ∃ (r : Fin 100000) (j : Fin 128), i = ix2 r j := ⟨i 0, i 1, eq_ix2 i⟩
  rw [Cert.Gin.layer_apply]
  unfold Cert.Gin.rowOut Cert.Gin.hidden Cert.Gin.combine
  rw [val_main_v21_apply, val_main_v18_apply, val_main_v20_apply, val_main_v19_apply]
  simp only [val_main_v17_apply, val_main_v16_apply, val_main_v13_apply, val_main_v15_apply, val_main_v14_apply,
    val_main_v12_apply, val_main_v11_apply, val_main_v10_apply, val_main_cst_1_apply, val_main_call0_v0_apply,
    val_main_call0_cst_apply, left_second, right_second, left_first, right_first, row_second, row_first]
  rfl

end Cert.Gin.Ref

end
-- ==== Proof.lean ====
/-
  A graph layer: for every node, the feature rows of its in-neighbours are summed along the edges (a gather of the
  source rows scatter-added at the destination rows), the node's own row scaled by one is added, and the sum goes
  through two linear maps with a rectifier between them:
      out = max ((1 · feature + neigh) · W1 + b1) 0 · W2 + b2.
  Both programs compute the neighbour sums with the same host operations. The kernel then works on twenty blocks of
  5000 rows, casting to a narrower float format before each product into a zero accumulator; the reference multiplies
  the whole arrays. On the extended reals the casts are the identity and a product into zero is the plain sum over
  the shared coordinate, so both results are one function of the arguments, entry by entry (`Cert.Gin.layer`): no law
  of arithmetic is needed beyond 0 + s = s, and the finiteness of the inputs is never used.

  The kernel's side is read off its run block by block (KernelValue, over Payload), the reference's side off its
  operations one at a time (RefValue); here the two are set side by side.
-/
import proofs.«115738_j65240553226749_1_alg».proof.Defs
import proofs.«115738_j65240553226749_1_alg».proof.Proof.Gen.Kernel
import proofs.«115738_j65240553226749_1_alg».proof.Proof.Gen.Kernel.Skeleton
import proofs.«115738_j65240553226749_1_alg».proof.Proof.Gen.Kernel.Launch
import proofs.«115738_j65240553226749_1_alg».proof.Proof.Gen.Kernel.Points
import proofs.«115738_j65240553226749_1_alg».proof.Proof.Gen.Kernel.Frame
import proofs.«115738_j65240553226749_1_alg».proof.Proof.Gen.KernelIdeal
import proofs.«115738_j65240553226749_1_alg».proof.Proof.Gen.KernelIdeal.Skeleton
import proofs.«115738_j65240553226749_1_alg».proof.Proof.Gen.KernelIdeal.Launch
import proofs.«115738_j65240553226749_1_alg».proof.Proof.Gen.KernelIdeal.Points
import proofs.«115738_j65240553226749_1_alg».proof.Proof.Gen.KernelIdeal.Frame
import proofs.«115738_j65240553226749_1_alg».proof.Proof.Gen.ReferenceIdeal
import proofs.«115738_j65240553226749_1_alg».proof.Proof.Gen.Pre_finite_inputs
import proofs.«115738_j65240553226749_1_alg».proof.Proof.Gen.KernelIdeal.Value
import proofs.«115738_j65240553226749_1_alg».proof.Proof.Gen.ReferenceIdeal.Run
import proofs.«115738_j65240553226749_1_alg».proof.Proof.Gen.ReferenceIdeal.Read
import proofs.«115738_j65240553226749_1_alg».proof.Proof.KernelValue
import proofs.«115738_j65240553226749_1_alg».proof.Proof.RefValue
import Idealize.ShloMosaic.Adequacy
import Idealize.ShloMosaic.Init

noncomputable section

namespace Cert.Proof

open Idealize.ShloMosaic Idealize.ShloMosaic.TcCoe Idealize.SL.Sem

/-- The neighbour sums are one term in both programs: the same gather and scatter-add over the same index
    arithmetic. -/
theorem neigh_same (x0 : (⟨Cert.ReferenceIdeal.S100000x128, .f32⟩ : BufTy).Contents (Elt Ideal))
    (x1 x2 : (⟨Cert.ReferenceIdeal.S1600000, .i32⟩ : BufTy).Contents (Elt Ideal)) :
    Cert.ReferenceIdeal.Read.val_main_v9 (F := Ideal) x0 x1 x2 = Cert.Gin.Kernel.neigh (F := Ideal) x0 x1 x2 := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer of those arguments. -/
theorem algebraic : Cert.algebraic_KernelIdeal_ReferenceIdeal := by
  intro m ρ m' ρ' _ hagree
  refine ⟨_, Cert.Gin.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v21_eq, Cert.Gin.Ref.result_eq, neigh_same, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
